-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x512 : Shape := ⟨4, ![8, 64, 128, 512]⟩
abbrev S512x512 : Shape := ⟨2, ![512, 512]⟩
abbrev S512 : Shape := ⟨1, ![512]⟩
abbrev S_ : Shape := ⟨0, ![]⟩

class Facts : Prop where
  bcast_S_S8x64x128x512 : S_.BroadcastsInDim S8x64x128x512 (![] : Fin 0 → Fin S8x64x128x512.rank)
  reducesTo_S8x64x128x512_S_d0_1_2_3 : S8x64x128x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x64x128x512 .f32) (main_arg1 : FVec F S512x512 .f32) (main_arg2 : FVec F S512 .f32) : IVec S_ 1 :=
  let main_v0 : FVec F S8x64x128x512 .f32 := Host.absf main_arg0
  let main_cst : FVec F S_ .f32 := constant S_ .f32 0x7F800000#32
  let main_v1 : FVec F S8x64x128x512 .f32 := broadcastInDim S8x64x128x512 ![] bcast_S_S8x64x128x512 main_cst
  let main_v2 : IVec S8x64x128x512 1 := cmpf .olt main_v0 main_v1
  let main_c : IVec S_ 1 := constantI S_ 1 1#1
  let main_v3 : IVec S_ 1 := (fun x v => Host.reduce IntOp.andi x v reducesTo_S8x64x128x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8x64x128x512 : Shape := ⟨4, ![8, 64, 128, 512]⟩
abbrev S512x512 : Shape := ⟨2, ![512, 512]⟩
abbrev S512 : Shape := ⟨1, ![512]⟩
abbrev S65536x512 : Shape := ⟨2, ![65536, 512]⟩
abbrev S1x512 : Shape := ⟨2, ![1, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S8x64x128x512, .f32⟩
  | .hbm, ⟨1, _⟩ => ⟨S512x512, .f32⟩
  | .hbm, ⟨2, _⟩ => ⟨S512, .f32⟩
  | .hbm, ⟨3, _⟩ => ⟨S65536x512, .f32⟩
  | .hbm, ⟨4, _⟩ => ⟨S1x512, .f32⟩
  | .hbm, ⟨5, _⟩ => ⟨S65536x512, .f32⟩
  | .hbm, ⟨6, _⟩ => ⟨S8x64x128x512, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S8x64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x128x512_S65536x512 : S8x64x128x512.ShapeCasts S65536x512
  shapeCasts_S512_S1x512 : S512.ShapeCasts S1x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S65536x512_S8x64x128x512 : S65536x512.ShapeCasts S8x64x128x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S65536x512.size a
  hwx0_3 : ∀ i : grid0.Coords, EltTy.bits .f32 = 32 ∨ (Rect.block (s := S65536x512) S4096x512.size (cc0_transform_3 i) (hinb0_3 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x128x512 : Shape := ⟨4, ![8, 64, 128, 512]⟩
abbrev S512x512 : Shape := ⟨2, ![512, 512]⟩
abbrev S512 : Shape := ⟨1, ![512]⟩
abbrev S1x1x1x512 : Shape := ⟨4, ![1, 1, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S8x64x128x512, .f32⟩
  | .hbm, ⟨1, _⟩ => ⟨S512x512, .f32⟩
  | .hbm, ⟨2, _⟩ => ⟨S512, .f32⟩
  | .hbm, ⟨3, _⟩ => ⟨S8x64x128x512, .f32⟩
  | .hbm, ⟨4, _⟩ => ⟨S1x1x1x512, .f32⟩
  | .hbm, ⟨5, _⟩ => ⟨S8x64x128x512, .f32⟩
  | .hbm, ⟨6, _⟩ => ⟨S8x64x128x512, .f32⟩
  | .hbm, ⟨7, _⟩ => ⟨S8x64x128x512, .f32⟩
  | _, _ => ⟨S8x64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x64x128x512_0_1_2_3 : S1x1x1x512.BroadcastsInDim S8x64x128x512 (![0, 1, 2, 3] : Fin 4 → Fin S8x64x128x512.rank)
  dot_S8x64x128x512_S512x512_S8x64x128x512_3_0_012_1_n_n_wf : DotDims.WF S8x64x128x512 S512x512 S8x64x128x512 [3] [0] [0, 1, 2] [1] [] []

variable [Facts₀]

def dot_S8x64x128x512_S512x512_S8x64x128x512_3_0_012_1_n_n : DotDims S8x64x128x512 S512x512 S8x64x128x512 where
  lhsContracting := [3]
  rhsContracting := [0]
  lhsNonContracting := [0, 1, 2]
  rhsNonContracting := [1]
  lhsBatch := []
  rhsBatch := []
  wf := dot_S8x64x128x512_S512x512_S8x64x128x512_3_0_012_1_n_n_wf

class Facts : Prop extends Facts₀ where

variable [Facts]
-- ==== Proof.KernelBlock.lean ====
/-
  One grid point's arithmetic, read at an element.

  At a grid point the kernel body holds a 4096 × 512 block of flattened rows `x`, the whole 512 × 512 weight matrix `w`
  and the bias as a one-row matrix `b`, and stores   tanh (x · w + b)   with the bias row repeated down the 4096 rows. Read
  at the extended reals the narrowing of both matrix operands to the 16-bit format is the identity and the matrix
  product into a zero accumulator is the plain sum over the contracted axis, so the stored block at (p, q) is
  tanh (Σ_{k < 512} x[p, k] · w[k, q] + b[0, q]): `block_apply`.
-/
import proofs.«138421_j71356586656491_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The matrix product's operand indices, coordinate by coordinate -/

/-- The left operand is read in the output's row … -/
theorem lhs_row (j : S4096x512.Idx) (q : dot_S4096x512_S512x512_S4096x512_1_0_0_1_n_n.contr.Idx) :
    (dot_S4096x512_S512x512_S4096x512_1_0_0_1_n_n.lhsIdx j q 0).val = (j 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
/-- … at the contracted feature; -/
theorem lhs_col (j : S4096x512.Idx) (q : dot_S4096x512_S512x512_S4096x512_1_0_0_1_n_n.contr.Idx) :
    (dot_S4096x512_S512x512_S4096x512_1_0_0_1_n_n.lhsIdx j q 1).val = (q ⟨0, by decide⟩).val :=
  dot_S4096x512_S512x512_S4096x512_1_0_0_1_n_n.lhsIdx_val_of_single rfl j q
/-- the right operand at the contracted feature … -/
theorem rhs_row (j : S4096x512.Idx) (q : dot_S4096x512_S512x512_S4096x512_1_0_0_1_n_n.contr.Idx) :
    (dot_S4096x512_S512x512_S4096x512_1_0_0_1_n_n.rhsIdx j q 0).val = (q ⟨0, by decide⟩).val :=
  dot_S4096x512_S512x512_S4096x512_1_0_0_1_n_n.rhsIdx_val_of_single rfl j q
/-- … in the output's column. -/
theorem rhs_col (j : S4096x512.Idx) (q : dot_S4096x512_S512x512_S4096x512_1_0_0_1_n_n.contr.Idx) :
    (dot_S4096x512_S512x512_S4096x512_1_0_0_1_n_n.rhsIdx j q 1).val = (j 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The product of a block of rows with the weights into a zero accumulator, at (p, q): the inner product of row `p`
    with column `q`, the contraction index renamed to the feature number. -/
theorem product_apply (x : FVec Ideal S4096x512 .bf16) (w : FVec Ideal S512x512 .bf16) (p : Fin 4096) (q : Fin 512) :
    matmul dot_S4096x512_S512x512_S4096x512_1_0_0_1_n_n none x w (constant (F := Ideal) S4096x512 .f32 0x00000000#32) (ix2 p q)
      = ∑ k : Fin 512, x (ix2 p k) * w (ix2 k q) := by
  simp only [matmul]
  rw [Ideal.matmul_constant_zero_apply, ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 p q) ((contrEquiv1 dot_S4096x512_S512x512_S4096x512_1_0_0_1_n_n 512 rfl rfl).symm k) = ix2 p k := funext fun a => Fin.ext (by
    match a with
    | ⟨0, _⟩ => exact lhs_row _ _
    | ⟨1, _⟩ => exact (lhs_col _ _).trans hk)
  have er : dot_S4096x512_S512x512_S4096x512_1_0_0_1_n_n.rhsIdx (ix2 p q) ((contrEquiv1 dot_S4096x512_S512x512_S4096x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- THE STORED BLOCK AT AN ELEMENT: tanh of row `p`'s inner product with column `q` plus the bias row at `q`. -/
theorem block_apply (x : Vec Ideal S4096x512 .f32) (w : Vec Ideal S512x512 .f32) (b : Vec Ideal S1x512 .f32)
    (p : Fin 4096) (q : Fin 512) :
    k0_pay1 (F := Ideal) x w b (ix2 p q)
      = Ideal.tanh ((∑ k : Fin 512, x (ix2 p k) * w (ix2 k q)) + b (ix2 (0 : Fin 1) q)) := by
  unfold k0_pay1
  show Ideal.tanh (matmul dot_S4096x512_S512x512_S4096x512_1_0_0_1_n_n none (truncf .bf16 (shapeCast S4096x512 x shapeCasts_S4096x512_S4096x512) bitsLt_bf16_f32)
        (truncf .bf16 w bitsLt_bf16_f32) (constant (F := Ideal) S4096x512 .f32 0x00000000#32) (ix2 p q)
      + broadcastTo S4096x512 (shapeCast S1x512 b shapeCasts_S1x512_S1x512) broadcasts_S1x512_S4096x512 (ix2 p q)) = _
  refine congrArg Ideal.tanh ?_
  refine (congrArg₂ (· + ·) (product_apply _ _ p q) (broadcastTo_1b_ab_apply _ broadcasts_S1x512_S4096x512 p q)).trans ?_
  rw [shapeCast_self, shapeCast_self]
  rfl

end Cert.KernelIdeal.Block

end
-- ==== Proof.Spec.lean ====
/-
  The dense layer this certificate is about, as one function of its three arrays.

  Every position (b, t₁, t₂) of a rank-4 array X of 8·64·128 rows of 512 features is sent through the same affine map and
  a hyperbolic tangent:   out[b, t₁, t₂, o] = tanh (Σ_{k < 512} X[b, t₁, t₂, k] · W[k, o] + bias[o]).
  `dense` states that over the rank-4 array; `denseRows` states the same map over the 65536 × 512 matrix of flattened
  positions with the bias laid out as one row. The two are one function up to the row-major bijection between
  (b, t₁, t₂) and the flat row number (b·64 + t₁)·128 + t₂, which is all `unflatten_denseRows` says. The extended reals
  need no law beyond that re-indexing: the sum is over the same 512 terms in the same order on both sides.
-/
import Idealize.ShloMosaic.PureOps.Ideal
import Idealize.ShloMosaic.Lib.ValueIdx
import Idealize.ShloMosaic.Lib.ValueLayout
import Idealize.ShloMosaic.Lib.Pipeline.Value

noncomputable section

namespace Cert.DenseTanh

open Idealize.ShloMosaic Idealize.ShloMosaic.ValueIdx

/-- The positions-by-features array: 8 × 64 × 128 positions of 512 features. -/
abbrev Batched : Shape := ⟨4, ![8, 64, 128, 512]⟩
/-- The same elements as 65536 flat rows. -/
abbrev Rows : Shape := ⟨2, ![65536, 512]⟩
/-- The weight matrix, input feature by output feature. -/
abbrev Weights : Shape := ⟨2, ![512, 512]⟩
/-- The bias vector, and the same as a one-row matrix. -/
abbrev Bias : Shape := ⟨1, ![512]⟩
abbrev BiasRow : Shape := ⟨2, ![1, 512]⟩

/-- The layer over the rank-4 array: at (b, t₁, t₂, o) the tanh of the row's inner product with column `o` plus `bias o`. -/
def dense (X : Batched.Idx → EReal) (W : Weights.Idx → EReal) (bias : Bias.Idx → EReal) : Batched.Idx → EReal :=
  fun i => Ideal.tanh ((∑ k : Fin 512, X (ix4 (i 0) (i 1) (i 2) k) * W (ix2 k (i 3))) + bias (ix1 (i 3)))

/-- The layer over flat rows, the bias as a one-row matrix: at (r, o) the tanh of row `r`'s inner product with column
    `o` plus the bias row at `o`. -/
def denseRows (X : Rows.Idx → EReal) (W : Weights.Idx → EReal) (bias : BiasRow.Idx → EReal) : Rows.Idx → EReal :=
  fun j => Ideal.tanh ((∑ k : Fin 512, X (ix2 (j 0) k) * W (ix2 k (j 1))) + bias (ix2 (0 : Fin 1) (j 1)))

/-- The flat row number of a position. -/
def rowOf (i : Batched.Idx) : Fin 65536 :=
  ⟨((i 0).val * 64 + (i 1).val) * 128 + (i 2).val, by
    have h0 : (i 0).val < 8 := (i 0).isLt
    have h1 : (i 1).val < 64 := (i 1).isLt
    have h2 : (i 2).val < 128 := (i 2).isLt
    omega⟩

/-- Flattening the positions, applying the row form, and unflattening again is the rank-4 layer: the row-major
    position of (b, t₁, t₂, k) in the rank-4 array is that of (row (b, t₁, t₂), k) in the matrix. -/
theorem unflatten_denseRows (X : Batched.Idx → EReal) (W : Weights.Idx → EReal) (bias : Bias.Idx → EReal)
    (hX : Batched.ShapeCasts Rows) (hb : Bias.ShapeCasts BiasRow) (hout : Rows.ShapeCasts Batched) :
    shapeCast Batched (denseRows (shapeCast Rows X hX) W (shapeCast BiasRow bias hb)) hout = dense X W bias := by
  funext i
  have hpos : (Rows.rowMajor (ix2 (rowOf i) (i 3))).val = (Batched.rowMajor i).val := by
    rw [Shape.rowMajor_val_two, Shape.rowMajor_val_four]; rfl
  rw [shapeCast_apply _ hout i (ix2 (rowOf i) (i 3)) hpos]
  unfold denseRows dense
  have hbias : shapeCast BiasRow bias hb (ix2 (0 : Fin 1) (i 3)) = bias (ix1 (i 3)) :=
    shapeCast_a_1a_apply bias hb 0 (i 3)
  have hrow : ∀ k : Fin 512, shapeCast Rows X hX (ix2 (rowOf i) k) = X (ix4 (i 0) (i 1) (i 2) k) := fun k =>
    shapeCast_apply X hX _ _ (by rw [Shape.rowMajor_val_two, Shape.rowMajor_val_four]; rfl)
  show Ideal.tanh ((∑ k : Fin 512, shapeCast Rows X hX (ix2 (rowOf i) k) * W (ix2 k (i 3)))
      + shapeCast BiasRow bias hb (ix2 (0 : Fin 1) (i 3))) = _
  rw [hbias]
  exact congrArg (fun s => Ideal.tanh (s + bias (ix1 (i 3)))) (Finset.sum_congr rfl fun k _ => by rw [hrow k])

end Cert.DenseTanh

end
-- ==== Proof.KernelArray.lean ====
/-
  From one grid point's block to the whole result.

  The program flattens the positions to 65536 rows and lays the bias out as one row, runs sixteen grid points each of
  which reads 4096 consecutive rows, the whole weight matrix and the bias row and writes the matching 4096 rows of the
  result, and unflattens the result again. Point `t` owns rows 4096·t … 4096·t + 4095, so row `r` is written by
  point `r / 4096` and by no other; what a point writes is its block of the one function `denseRows` of the arrays the
  region finds (`rowsOut`). Hence the region's output array is `denseRows` of the flattened arguments, and the
  program's result, one reshape later, is `dense` of the arguments by `unflatten_denseRows`.
-/
import proofs.«138421_j71356586656491_1_alg».proof.Proof.Gen.KernelIdeal.Frame
import proofs.«138421_j71356586656491_1_alg».proof.Proof.KernelBlock
import proofs.«138421_j71356586656491_1_alg».proof.Proof.Spec
import Idealize.ShloMosaic.Lib.Pipeline.Value
import Idealize.ShloMosaic.Lib.StableHlo.Run

set_option maxRecDepth 16384

noncomputable section

namespace Cert.KernelIdeal.Array

open Cert.KernelIdeal Cert.KernelIdeal.Gen Cert.DenseTanh
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The flattened rows, the weights and the bias row as the region finds them. -/
abbrev xrows (c : Dev nD) : Vec Ideal S65536x512 .f32 := V m c main_v0
abbrev wts (c : Dev nD) : Vec Ideal S512x512 .f32 := V m c main_arg1
abbrev brow (c : Dev nD) : Vec Ideal S1x512 .f32 := V m c main_v1

/-- What the region's output array ends holding: the row form of the layer, of those three arrays. -/
def rowsOut (c : Dev nD) : Vec Ideal S65536x512 .f32 := denseRows (xrows m c) (wts m c) (brow m c)

theorem hz : (![0, 0] : Fin 2 → Nat) = fun _ => 0 := funext fun a => by fin_cases a <;> rfl

/-- The block indices, decided over the sixteen points: the rows' window and the output's are at block `t`, the weights
    and the bias row always at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks at a point, read at an element -/

/-- Row `p` of point `t`'s block of rows is row 4096·t + p of the flattened array. -/
theorem xblock_apply (c : Dev nD) (t : Fin cfg0.N) (p : Fin 4096) (k : Fin 512) (hr : t.val * 4096 + p.val < 65536) :
    iblk m c 0 t (ix2 p k) = xrows m c (ix2 ⟨t.val * 4096 + p.val, hr⟩ k) := by
  obtain ⟨e0, e1, -⟩ := idx_facts t
  show V m c main_v0 (((cfg0.win 0).blk t).view.emb (ix2 p k)) = V m c main_v0 (ix2 ⟨t.val * 4096 + p.val, hr⟩ k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 512 + 1 * k.val = k.val; omega

/-- The weights' block is the whole matrix at every point. -/
theorem wblock_apply (c : Dev nD) (t : Fin cfg0.N) (k : Fin 512) (q : Fin 512) :
    iblk m c 1 t (ix2 k q) = wts m c (ix2 k q) := by
  obtain ⟨-, -, e2, e3, -⟩ := idx_facts t
  show V m c main_arg1 (((cfg0.win 1).blk t).view.emb (ix2 k q)) = V m c main_arg1 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- So is the bias row's. -/
theorem bblock_apply (c : Dev nD) (t : Fin cfg0.N) (q : Fin 512) :
    iblk m c 2 t (ix2 (0 : Fin 1) q) = brow m c (ix2 (0 : Fin 1) q) := by
  obtain ⟨-, -, -, -, e4, e5, -⟩ := idx_facts t
  show V m c main_v1 (((cfg0.win 2).blk t).view.emb (ix2 (0 : Fin 1) q)) = V m c main_v1 (ix2 (0 : Fin 1) q)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- WHAT POINT `t` COMPUTES at (p, q) is the row form of the layer at row 4096·t + p, column q. -/
theorem point_apply (c : Dev nD) (t : Fin cfg0.N) (p : Fin 4096) (q : Fin 512) (hr : t.val * 4096 + p.val < 65536) :
    k0_pay1 (F := Ideal) (iblk m c 0 t) (iblk m c 1 t) (iblk m c 2 t) (ix2 p q)
      = rowsOut m c (ix2 ⟨t.val * 4096 + p.val, hr⟩ q) := by
  refine (Block.block_apply _ _ _ p q).trans ?_
  show _ = Ideal.tanh ((∑ k : Fin 512, xrows m c (ix2 ⟨t.val * 4096 + p.val, hr⟩ k) * wts m c (ix2 k q)) + brow m c (ix2 (0 : Fin 1) q))
  rw [bblock_apply m c t q]
  exact congrArg (fun s => Ideal.tanh (s + brow m c (ix2 (0 : Fin 1) q)))
    (Finset.sum_congr rfl fun k _ => by rw [xblock_apply m c t p k hr, wblock_apply m c t k q])

/-! ## What a point writes back, the cover, the array after the run -/

/-- WHAT POINT `t` WRITES BACK is its block of `rowsOut`. -/
theorem flushed_eq (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3]
  unfold out0_3
  rw [View.canon_unit_zero hz]
  simp only [View.ld_unit_zero (S := S4096x512) hz, View.ld_unit_zero (S := S512x512) hz, View.ld_unit_zero (S := S1x512) hz]
  obtain ⟨-, -, -, -, -, -, e6, e7⟩ := idx_facts t
  have ht : t.val < 16 := by have h := t.isLt; have hN : cfg0.N = 16 := N_0; omega
  funext j
  obtain ⟨p, q, rfl⟩ : ∃ (p : Fin 4096) (q : Fin 512), j = ix2 p q := ⟨j 0, j 1, eq_ix2 j⟩
  have hr : t.val * 4096 + p.val < 65536 := by have := p.isLt; omega
  show k0_pay1 (F := Ideal) (iblk m c 0 t) (iblk m c 1 t) (iblk m c 2 t) (ix2 p q)
    = rowsOut m c (((cfg0.win 3).blk t).view.emb (ix2 p q))
  refine (point_apply m c t p q hr).trans (congrArg (rowsOut m c) (funext fun a => Fin.ext ?_))
  match a with
  | ⟨0, _⟩ => show t.val * 4096 + p.val = win0_3.index t (0 : Fin 2) * 4096 + 1 * p.val; omega
  | ⟨1, _⟩ => show q.val = win0_3.index t (1 : Fin 2) * 512 + 1 * q.val; omega

/-- An index of the output array is in point `t`'s block iff each coordinate is in the block's range. -/
theorem mem_blk (t : Fin cfg0.N) (i : S65536x512.Idx) :
    i ∈ ((cfg0.win 3).blk t).view.set ↔ ∀ a : Fin 2, win0_3.index t a * S4096x512.size a ≤ (i a).val ∧ (i a).val < win0_3.index t a * S4096x512.size a + S4096x512.size a := by
  show i ∈ ((View.whole main_v2).slice (win0_3.rect t)).set ↔ _
  rw [View.set_slice_whole, Rect.mem_set_unit]
  exact Iff.rfl

/-- Row `r` is in the block of point `r / 4096`: the sixteen blocks cover the array. -/
theorem cover (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 16 := N_0
  have hlt : (i 0).val / 4096 < cfg0.N := by rw [hN]; omega
  obtain ⟨-, -, -, -, -, -, e6, e7⟩ := idx_facts ⟨(i 0).val / 4096, hlt⟩
  have e6' : win0_3.index ⟨(i 0).val / 4096, hlt⟩ (0 : Fin 2) = (i 0).val / 4096 := e6
  refine ⟨⟨(i 0).val / 4096, hlt⟩, flush0_3 _, ?_⟩
  rw [mem_blk]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    omega
  | ⟨1, _⟩ =>
    show win0_3.index ⟨(i 0).val / 4096, hlt⟩ (1 : Fin 2) * 512 ≤ (i 1).val ∧ (i 1).val < win0_3.index ⟨(i 0).val / 4096, hlt⟩ (1 : Fin 2) * 512 + 512
    omega

/-- THE REGION'S OUTPUT ARRAY after the run. -/
theorem final (c : Dev nD) : (dats m 0 c).arrAt 3 cfg0.N = rowsOut m c :=
  (dats m 0 c).arrAt_eq_of_cover 3 (rowsOut m c) (fun t _ => flushed_eq m c t) cover

end Cert.KernelIdeal.Array

end
-- ==== Proof.KernelRun.lean ====
/-
  The whole program's result.

  Before the region two reshapes flatten the rank-4 argument to 65536 rows and lay the bias vector out as one row; the
  weights reach the region as launched. After the region one reshape unflattens the region's output array. Put
  together with what the region leaves (`Array.final`), every weakly fair run ends with the result buffer at
  `dense` of the three argument arrays, the arguments unchanged.
-/
import proofs.«138421_j71356586656491_1_alg».proof.Proof.KernelArray

noncomputable section

namespace Cert.KernelIdeal.Whole

open Cert.KernelIdeal Cert.KernelIdeal.Gen Cert.DenseTanh
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region finds the rows as the rank-4 argument flattened, -/
theorem xrows_eq (c : Dev nD) :
    Array.xrows m c = shapeCast S65536x512 (m ((c : Thread nD τ).loc main_arg0)) shapeCasts_S8x64x128x512_S65536x512 := by
  show StableHlo.after hostOps0 (fun b => m (c, b)) (Proc.devRef .tc main_v0) = _
  after_results
  rfl

/-- the bias row as the bias vector laid out as one row, -/
theorem brow_eq (c : Dev nD) :
    Array.brow m c = shapeCast S1x512 (m ((c : Thread nD τ).loc main_arg2)) shapeCasts_S512_S1x512 := by
  show StableHlo.after hostOps0 (fun b => m (c, b)) (Proc.devRef .tc main_v1) = _
  after_results
  rfl

/-- and the weights as launched. -/
theorem wts_eq (c : Dev nD) : Array.wts m c = m ((c : Thread nD τ).loc main_arg1) := V_main_arg1 m c

/-- The program's result buffer after the lines that follow the region: the region's output array unflattened, which
    is the dense layer of the arguments. -/
theorem result_eq (c : Dev nD) :
    Pipeline.afterTail₀ cfgs (dats m) 0 (V0 m) [hostOps1] c main_v3
      = dense (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = Array.rowsOut m c := (Pipeline.withArrays_arr spec0 launch0.win.arr_inj c _ _ 3).trans (Array.final m c)
  rw [hw]
  show shapeCast S8x64x128x512 (Array.rowsOut m c) shapeCasts_S65536x512_S8x64x128x512 = _
  unfold Array.rowsOut
  rw [xrows_eq, brow_eq, wts_eq]
  exact unflatten_denseRows _ _ _ _ _ _

/-- THE RUN: every weakly fair execution of the program terminates with the result buffer at the dense layer of the
    argument arrays and the arguments unchanged. -/
theorem run : θ_run defs (onTc (τ := τ) (main (F := Ideal))) ⟨m, fun _ => 0, ρ⟩ fun r => ∀ c : Dev nD,
      r.2.mem ((c.tc : Thread nD τ).loc main_v3)
        = dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans ((((dats m) 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference computes the dense layer.

  Its five host operations are a contraction of the rank-4 array's last axis with the weight matrix's first, the bias
  broadcast (through a 1 × 1 × 1 × 512 array) over all positions, their sum, and a hyperbolic tangent. Read one
  operation at a time at a position (b, t₁, t₂, o) that is tanh (Σ_{k < 512} X[b, t₁, t₂, k] · W[k, o] + bias[o]), which is
  `dense` word for word once the operand indices are named by their coordinates.
-/
import proofs.«138421_j71356586656491_1_alg».proof.Proof.Gen.ReferenceIdeal.Read
import proofs.«138421_j71356586656491_1_alg».proof.Proof.Spec

noncomputable section

namespace Cert.ReferenceIdeal.RefValue

open Cert.ReferenceIdeal Cert.ReferenceIdeal.Gen Cert.ReferenceIdeal.Read Cert.DenseTanh
open Idealize.ShloMosaic Idealize.ShloMosaic.ValueIdx

/-- The last stage of the reference, as a function of the three argument arrays, is the dense layer. -/
theorem reference_eq_dense (X : (⟨S8x64x128x512, .f32⟩ : BufTy).Contents (Elt Ideal))
    (W : (⟨S512x512, .f32⟩ : BufTy).Contents (Elt Ideal)) (bias : (⟨S512, .f32⟩ : BufTy).Contents (Elt Ideal)) :
    val_main_v4 (F := Ideal) X W bias = dense X W bias := by
  funext i
  have el : ∀ k : Fin 512, lidx_main_v0 i k = ix4 (i 0) (i 1) (i 2) k := fun k => funext fun a => Fin.ext (by
    match a with
    | ⟨0, _⟩ => rfl
    | ⟨1, _⟩ => rfl
    | ⟨2, _⟩ => rfl
    | ⟨3, _⟩ => rfl)
  have er : ∀ k : Fin 512, ridx_main_v0 i k = ix2 k (i 3) := fun k => funext fun a => Fin.ext (by
    match a with
    | ⟨0, _⟩ => rfl
    | ⟨1, _⟩ => rfl)
  have eb : idx_main_v1 (idx_main_v2 i) = ix1 (i 3) := funext fun a => Fin.ext (by
    match a with
    | ⟨0, _⟩ => rfl)
  rw [val_main_v4_apply, val_main_v3_apply, val_main_v0_apply, val_main_v2_apply, val_main_v1_apply]
  simp only [el, er, eb]
  rfl

end Cert.ReferenceIdeal.RefValue

end
-- ==== Proof.lean ====
/-
  A time-distributed dense layer with a hyperbolic tangent, tiled over row blocks, against its one-line einsum form.

  Both programs compute, at every position (b, t₁, t₂) of an 8 × 64 × 128 grid of 512-feature rows and every output
  feature o,        out[b, t₁, t₂, o] = tanh (Σ_{k < 512} X[b, t₁, t₂, k] · W[k, o] + bias[o]).
  The kernel flattens the positions to 65536 rows, walks them in sixteen blocks of 4096 rows, multiplies each block by
  the whole weight matrix on the matrix unit (operands narrowed to 16 bits, accumulated in 32), adds the bias row,
  applies tanh, and unflattens the result. The reference contracts the rank-4 array with the weights directly, adds
  the broadcast bias and applies tanh. Over the extended reals a change of float format is the identity, the matrix
  unit's product into a zero accumulator is the plain sum over the contracted axis, and both tanh are one function; the
  two sums run over the same 512 products in the same order, so nothing about infinities is needed and the
  precondition is never opened. What remains is bookkeeping of indices: the row-major bijection between a position and
  its flat row (Spec), one block's arithmetic at an element (KernelBlock), the sixteen blocks tiling the rows
  (KernelArray), the reshapes around the region (KernelRun), and the reference read operation by operation (RefValue).
  The word-level kernel and the idealized one are the same text (the idealization rewrote nothing), so that conjunct is
  trivial; the three frames are the programs' runs with the result dropped.
-/
import proofs.«138421_j71356586656491_1_alg».proof.Defs
import proofs.«138421_j71356586656491_1_alg».proof.Proof.Gen.Kernel
import proofs.«138421_j71356586656491_1_alg».proof.Proof.Gen.Kernel.Skeleton
import proofs.«138421_j71356586656491_1_alg».proof.Proof.Gen.Kernel.Launch
import proofs.«138421_j71356586656491_1_alg».proof.Proof.Gen.Kernel.Points
import proofs.«138421_j71356586656491_1_alg».proof.Proof.Gen.Kernel.Frame
import proofs.«138421_j71356586656491_1_alg».proof.Proof.Gen.KernelIdeal
import proofs.«138421_j71356586656491_1_alg».proof.Proof.Gen.KernelIdeal.Skeleton
import proofs.«138421_j71356586656491_1_alg».proof.Proof.Gen.KernelIdeal.Launch
import proofs.«138421_j71356586656491_1_alg».proof.Proof.Gen.KernelIdeal.Points
import proofs.«138421_j71356586656491_1_alg».proof.Proof.Gen.KernelIdeal.Frame
import proofs.«138421_j71356586656491_1_alg».proof.Proof.Gen.ReferenceIdeal
import proofs.«138421_j71356586656491_1_alg».proof.Proof.Gen.Pre_finite_inputs
import proofs.«138421_j71356586656491_1_alg».proof.Proof.Gen.ReferenceIdeal.Run
import proofs.«138421_j71356586656491_1_alg».proof.Proof.Gen.ReferenceIdeal.Read
import proofs.«138421_j71356586656491_1_alg».proof.Proof.KernelRun
import proofs.«138421_j71356586656491_1_alg».proof.Proof.RefValue
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is five host operations in a line: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on X, W and the bias both programs end with the result buffer at `dense X W bias`:
    the kernel by its run, the reference by its run read stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.RefValue.reference_eq_dense _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
